-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_arg7 : FVec F S64x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x16 .f32) (main_arg6 : FVec F S16 .f32) (main_arg7 : FVec F S64x16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 50
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x1, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x1, .f32⟩
  | .hbm, ⟨48, _⟩ => ⟨S1x16, .f32⟩
  | .hbm, ⟨49, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x16, .f32⟩
  | .local _ .vmem, ⟨18, _⟩ => ⟨S1x16, .f32⟩
  | .local _ .vmem, ⟨19, _⟩ => ⟨S64x16, .f32⟩
  | .local _ .vmem, ⟨20, _⟩ => ⟨S10000x16, .f32⟩
  | .local _ .vmem, ⟨21, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x16.size a ≤ S100000x16.size a
  hwx1_6 : ∀ i : grid1.Coords, EltTy.bits .f32 = 32 ∨ (Rect.block (s := S100000x16) S10000x16.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.SageLayer.lean ====
/-
  One mean-aggregation layer, read row by row at the ideal values.

  The layer maps a matrix of summed messages `A`, a positive per-row divisor `δ`, the node features `X`, two weight
  matrices and a bias to `(A / δ) · Wl + X · Wr + bias`. A program that tiles the rows computes, on each tile, the two
  products by a matrix unit (operands narrowed to bf16, accumulated into zeros), adds them, and then adds the bias kept
  as a `[1, M]` row; the plain program computes `(A / δ) · Wl` by one `dot_general`, adds the bias vector broadcast over
  the rows, and then adds `X · Wr`. Over the extended reals narrowing is the identity, both products are the textbook
  sums, and addition is commutative and associative, so the two orders of the three summands agree: row `r` of the
  tile's result is row `n r` of the whole result as soon as the tile's rows are rows `n r` of the whole operands
  (`layer_rows`), and the same after the maximum with zero (`relu_layer_rows`). Nothing here depends on the sizes.
-/
import proofs.«124443_j66614942761183_1_alg».proof.Proof.LibAffineRows

noncomputable section

namespace Cert.Sage

open Idealize.ShloMosaic Idealize.ShloMosaic.ValueIdx Cert.Lib

variable {R K M N : ℕ}

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile's side: the two matrix-unit products, their sum, and the bias row, at `(r, q)`. -/
theorem tile_apply {dB : DotDims ⟨2, ![R, K]⟩ ⟨2, ![K, M]⟩ ⟨2, ![R, M]⟩} (hB : PlainDot dB)
    (A : FVec Ideal ⟨2, ![R, K]⟩ .f32) (δ : FVec Ideal ⟨2, ![R, 1]⟩ .f32) (X : FVec Ideal ⟨2, ![R, K]⟩ .f32)
    (Wl Wr : FVec Ideal ⟨2, ![K, M]⟩ .f32) (b2 : FVec Ideal ⟨2, ![1, M]⟩ .f32)
    (ht : FTy.bits .bf16 < FTy.bits .f32)
    (hδ : (⟨2, ![R, 1]⟩ : Shape).Broadcasts ⟨2, ![R, K]⟩) (hb : (⟨2, ![1, M]⟩ : Shape).Broadcasts ⟨2, ![R, M]⟩)
    (r : Fin R) (q : Fin M) :
    addf (addf (matmul dB none (truncf .bf16 (divf A (broadcastTo ⟨2, ![R, K]⟩ δ hδ)) ht) (truncf .bf16 Wl ht)
                  (constant ⟨2, ![R, M]⟩ .f32 0x00000000#32))
               (matmul dB none (truncf .bf16 X ht) (truncf .bf16 Wr ht) (constant ⟨2, ![R, M]⟩ .f32 0x00000000#32)))
         (broadcastTo ⟨2, ![R, M]⟩ b2 hb) (ix2 r q)
      = ((∑ k : Fin K, Ideal.div (A (ix2 r k)) (δ (ix2 r (0 : Fin 1))) * Wl (ix2 k q))
          + ∑ k : Fin K, X (ix2 r k) * Wr (ix2 k q)) + b2 (ix2 (0 : Fin 1) q) := by
  rw [addf_apply, addf_apply, matmul_zero_apply hB, matmul_zero_apply hB, broadcastTo_1b_ab_apply]
  refine congrArg (fun s => (s + ∑ k : Fin K, X (ix2 r k) * Wr (ix2 k q)) + b2 (ix2 (0 : Fin 1) q)) ?_
  refine Finset.sum_congr rfl fun k _ => ?_
  rw [divf_apply, broadcastTo_a1_ab_apply]

/-- The plain side: the product of the quotient, the bias over the rows, the second product, at `(n, q)`. -/
theorem whole_apply {dW : DotDims ⟨2, ![N, K]⟩ ⟨2, ![K, M]⟩ ⟨2, ![N, M]⟩} (hW : PlainDot dW)
    (A D X : FVec Ideal ⟨2, ![N, K]⟩ .f32) (Wl Wr : FVec Ideal ⟨2, ![K, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    addf (addf (Host.dotGeneral dW none (Host.divf A D) Wl)
               (broadcastInDim ⟨2, ![N, M]⟩ ![0, 1] h2 (broadcastInDim ⟨2, ![1, M]⟩ ![1] h1 b)))
         (Host.dotGeneral dW none X Wr) (ix2 n q)
      = ((∑ k : Fin K, Ideal.div (A (ix2 n k)) (D (ix2 n k)) * Wl (ix2 k q)) + b (ix1 q))
          + ∑ k : Fin K, X (ix2 n k) * Wr (ix2 k q) := by
  rw [addf_apply, addf_apply, Cert.Lib.dotGeneral_apply hW, Cert.Lib.dotGeneral_apply hW, bias_rows_apply]
  rfl

/-- ROW BY ROW: where the tile's rows are rows `n r` of the whole operands, the tile's divisor column at row `r` is the
    whole divisor anywhere in row `n r`, and the bias row is the bias vector, the tile's layer at `(r, q)` is the whole
    layer at `(n r, q)`: the three summands are the same, added in another order. -/
theorem layer_rows {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (Ab : FVec Ideal ⟨2, ![R, K]⟩ .f32) (δb : FVec Ideal ⟨2, ![R, 1]⟩ .f32) (Xb : FVec Ideal ⟨2, ![R, K]⟩ .f32)
    (b2 : FVec Ideal ⟨2, ![1, M]⟩ .f32)
    (A D X : FVec Ideal ⟨2, ![N, K]⟩ .f32) (Wl Wr : FVec Ideal ⟨2, ![K, M]⟩ .f32) (b : FVec Ideal ⟨1, ![M]⟩ .f32)
    (n : Fin R → Fin N)
    (hA : ∀ r k, Ab (ix2 r k) = A (ix2 (n r) k)) (hD : ∀ r k, δb (ix2 r (0 : Fin 1)) = D (ix2 (n r) k))
    (hX : ∀ r k, Xb (ix2 r k) = X (ix2 (n r) k)) (hbias : ∀ q : Fin M, b2 (ix2 (0 : Fin 1) q) = b (ix1 q))
    (ht : FTy.bits .bf16 < FTy.bits .f32)
    (hδ : (⟨2, ![R, 1]⟩ : Shape).Broadcasts ⟨2, ![R, K]⟩) (hb : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (addf (matmul dB none (truncf .bf16 (divf Ab (broadcastTo ⟨2, ![R, K]⟩ δb hδ)) ht) (truncf .bf16 Wl ht)
                  (constant ⟨2, ![R, M]⟩ .f32 0x00000000#32))
               (matmul dB none (truncf .bf16 Xb ht) (truncf .bf16 Wr ht) (constant ⟨2, ![R, M]⟩ .f32 0x00000000#32)))
         (broadcastTo ⟨2, ![R, M]⟩ b2 hb) (ix2 r q)
      = addf (addf (Host.dotGeneral dW none (Host.divf A D) Wl)
               (broadcastInDim ⟨2, ![N, M]⟩ ![0, 1] h2 (broadcastInDim ⟨2, ![1, M]⟩ ![1] h1 b)))
         (Host.dotGeneral dW none X Wr) (ix2 (n r) q) := by
  rw [tile_apply hB, whole_apply hW, hbias, add_right_comm]
  refine congrArg₂ (fun s t => (s + b (ix1 q)) + t) ?_ ?_
  · exact Finset.sum_congr rfl fun k _ => by rw [hA, hD r k]
  · exact Finset.sum_congr rfl fun k _ => by rw [hX]

/-- The same after the maximum with zero: the tile's scalar zero splat and the plain program's zero constant broadcast
    are the same number. -/
theorem relu_layer_rows {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (Ab : FVec Ideal ⟨2, ![R, K]⟩ .f32) (δb : FVec Ideal ⟨2, ![R, 1]⟩ .f32) (Xb : FVec Ideal ⟨2, ![R, K]⟩ .f32)
    (b2 : FVec Ideal ⟨2, ![1, M]⟩ .f32)
    (A D X : FVec Ideal ⟨2, ![N, K]⟩ .f32) (Wl Wr : FVec Ideal ⟨2, ![K, M]⟩ .f32) (b : FVec Ideal ⟨1, ![M]⟩ .f32)
    (n : Fin R → Fin N)
    (hA : ∀ r k, Ab (ix2 r k) = A (ix2 (n r) k)) (hD : ∀ r k, δb (ix2 r (0 : Fin 1)) = D (ix2 (n r) k))
    (hX : ∀ r k, Xb (ix2 r k) = X (ix2 (n r) k)) (hbias : ∀ q : Fin M, b2 (ix2 (0 : Fin 1) q) = b (ix1 q))
    (ht : FTy.bits .bf16 < FTy.bits .f32)
    (hδ : (⟨2, ![R, 1]⟩ : Shape).Broadcasts ⟨2, ![R, K]⟩) (hb : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ (![] : Fin 0 → Fin 2)) (r : Fin R) (q : Fin M) :
    maximumf (addf (addf (matmul dB none (truncf .bf16 (divf Ab (broadcastTo ⟨2, ![R, K]⟩ δb hδ)) ht) (truncf .bf16 Wl ht)
                  (constant ⟨2, ![R, M]⟩ .f32 0x00000000#32))
               (matmul dB none (truncf .bf16 Xb ht) (truncf .bf16 Wr ht) (constant ⟨2, ![R, M]⟩ .f32 0x00000000#32)))
         (broadcastTo ⟨2, ![R, M]⟩ b2 hb)) (broadcast ⟨2, ![R, M]⟩ (Scalar.ofBits (F := Ideal) .f32 0x00000000#32)) (ix2 r q)
      = maximumf (addf (addf (Host.dotGeneral dW none (Host.divf A D) Wl)
               (broadcastInDim ⟨2, ![N, M]⟩ ![0, 1] h2 (broadcastInDim ⟨2, ![1, M]⟩ ![1] h1 b)))
         (Host.dotGeneral dW none X Wr))
         (broadcastInDim ⟨2, ![N, M]⟩ ![] h0 (constant (F := Ideal) ⟨0, ![]⟩ .f32 0x00000000#32)) (ix2 (n r) q) := by
  rw [maximumf_apply, maximumf_apply,
    layer_rows hB hW Ab δb Xb b2 A D X Wl Wr b n hA hD hX hbias ht hδ hb h1 h2 r q]
  rfl

end Cert.Sage

end
-- ==== Proof.Dots.lean ====
/-
  The four products of the two programs are plain matrix products: each contracts the left operand's columns
  against the right operand's rows over one index of extent 64, the result's row being the left operand's row and
  its column the right operand's column — for the tiles of 10000 rows (the kernel's matrix-unit products, output
  widths 64 and 16) and for the whole 100000 rows (the plain program's `dot_general`s).
-/
import proofs.«124443_j66614942761183_1_alg».proof.Proof.Gen.KernelIdeal
import proofs.«124443_j66614942761183_1_alg».proof.Proof.Gen.ReferenceIdeal.Read
import proofs.«124443_j66614942761183_1_alg».proof.Proof.LibAffineRows

noncomputable section

namespace Cert.Sage

open Idealize.ShloMosaic Cert.Lib

/-! ## The tile products: which operand coordinate each axis of the dimension record reads -/

theorem lhs_tile64_0 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.lhsIdx i q 0).val = (i 0).val := by
  unfold DotDims.lhsIdx
  rw [dif_neg (show ¬(0 : Fin Cert.KernelIdeal.S10000x64.rank) ∈ Cert.KernelIdeal.dot_S10000x64_S64x64_S10000x64_1_0_0_1_n_n.lhsBatch by decide), dif_pos (show (0 : Fin Cert.KernelIdeal.S10000x64.rank) ∈ Cert.KernelIdeal.dot_S10000x64_S64x64_S10000x64_1_0_0_1_n_n.lhsNonContracting by decide)]
  rfl
theorem lhs_tile64_1 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.lhsIdx i q 1).val = (q ⟨0, by decide⟩).val :=
  Cert.KernelIdeal.dot_S10000x64_S64x64_S10000x64_1_0_0_1_n_n.lhsIdx_val_of_single rfl i q
theorem rhs_tile64_0 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.rhsIdx i q 0).val = (q ⟨0, by decide⟩).val :=
  Cert.KernelIdeal.dot_S10000x64_S64x64_S10000x64_1_0_0_1_n_n.rhsIdx_val_of_single rfl i q
theorem rhs_tile64_1 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.rhsIdx i q 1).val = (i 1).val := by
  unfold DotDims.rhsIdx
  rw [dif_neg (show ¬(1 : Fin Cert.KernelIdeal.S64x64.rank) ∈ Cert.KernelIdeal.dot_S10000x64_S64x64_S10000x64_1_0_0_1_n_n.rhsBatch by decide), dif_pos (show (1 : Fin Cert.KernelIdeal.S64x64.rank) ∈ Cert.KernelIdeal.dot_S10000x64_S64x64_S10000x64_1_0_0_1_n_n.rhsNonContracting by decide)]
  rfl

theorem lhs_tile16_0 (i : Cert.KernelIdeal.S10000x16.Idx) (q : Cert.KernelIdeal.dot_S10000x64_S64x16_S10000x16_1_0_0_1_n_n.contr.Idx) :
    (Cert.KernelIdeal.dot_S10000x64_S64x16_S10000x16_1_0_0_1_n_n.lhsIdx i q 0).val = (i 0).val := by
  unfold DotDims.lhsIdx
  rw [dif_neg (show ¬(0 : Fin Cert.KernelIdeal.S10000x64.rank) ∈ Cert.KernelIdeal.dot_S10000x64_S64x16_S10000x16_1_0_0_1_n_n.lhsBatch by decide), dif_pos (show (0 : Fin Cert.KernelIdeal.S10000x64.rank) ∈ Cert.KernelIdeal.dot_S10000x64_S64x16_S10000x16_1_0_0_1_n_n.lhsNonContracting by decide)]
  rfl
theorem lhs_tile16_1 (i : Cert.KernelIdeal.S10000x16.Idx) (q : Cert.KernelIdeal.dot_S10000x64_S64x16_S10000x16_1_0_0_1_n_n.contr.Idx) :
    (Cert.KernelIdeal.dot_S10000x64_S64x16_S10000x16_1_0_0_1_n_n.lhsIdx i q 1).val = (q ⟨0, by decide⟩).val :=
  Cert.KernelIdeal.dot_S10000x64_S64x16_S10000x16_1_0_0_1_n_n.lhsIdx_val_of_single rfl i q
theorem rhs_tile16_0 (i : Cert.KernelIdeal.S10000x16.Idx) (q : Cert.KernelIdeal.dot_S10000x64_S64x16_S10000x16_1_0_0_1_n_n.contr.Idx) :
    (Cert.KernelIdeal.dot_S10000x64_S64x16_S10000x16_1_0_0_1_n_n.rhsIdx i q 0).val = (q ⟨0, by decide⟩).val :=
  Cert.KernelIdeal.dot_S10000x64_S64x16_S10000x16_1_0_0_1_n_n.rhsIdx_val_of_single rfl i q
theorem rhs_tile16_1 (i : Cert.KernelIdeal.S10000x16.Idx) (q : Cert.KernelIdeal.dot_S10000x64_S64x16_S10000x16_1_0_0_1_n_n.contr.Idx) :
    (Cert.KernelIdeal.dot_S10000x64_S64x16_S10000x16_1_0_0_1_n_n.rhsIdx i q 1).val = (i 1).val := by
  unfold DotDims.rhsIdx
  rw [dif_neg (show ¬(1 : Fin Cert.KernelIdeal.S64x16.rank) ∈ Cert.KernelIdeal.dot_S10000x64_S64x16_S10000x16_1_0_0_1_n_n.rhsBatch by decide), dif_pos (show (1 : Fin Cert.KernelIdeal.S64x16.rank) ∈ Cert.KernelIdeal.dot_S10000x64_S64x16_S10000x16_1_0_0_1_n_n.rhsNonContracting by decide)]
  rfl

/-- The hidden layer's tile product `[10000, 64] · [64, 64]` is a plain matrix product. -/
theorem plain_tile64 : PlainDot (R := 10000) (K := 64) (M := 64) Cert.KernelIdeal.dot_S10000x64_S64x64_S10000x64_1_0_0_1_n_n :=
  ⟨rfl, rfl, lhs_tile64_0, lhs_tile64_1, rhs_tile64_0, rhs_tile64_1⟩

/-- The output layer's tile product `[10000, 64] · [64, 16]` is a plain matrix product. -/
theorem plain_tile16 : PlainDot (R := 10000) (K := 64) (M := 16) Cert.KernelIdeal.dot_S10000x64_S64x16_S10000x16_1_0_0_1_n_n :=
  ⟨rfl, rfl, lhs_tile16_0, lhs_tile16_1, rhs_tile16_0, rhs_tile16_1⟩

/-- The plain program's `[100000, 64] · [64, 64]` is a plain matrix product (the axis facts are the generated ones). -/
theorem plain_whole64 : PlainDot (R := 100000) (K := 64) (M := 64) Cert.ReferenceIdeal.dot_S100000x64_S64x64_S100000x64_1_0_0_1_n_n :=
  ⟨rfl, rfl, Cert.ReferenceIdeal.Read.lhs_main_v23_0, Cert.ReferenceIdeal.Read.lhs_main_v23_1,
    Cert.ReferenceIdeal.Read.rhs_main_v23_0, Cert.ReferenceIdeal.Read.rhs_main_v23_1⟩

/-- The plain program's `[100000, 64] · [64, 16]` is a plain matrix product (the axis facts are the generated ones). -/
theorem plain_whole16 : PlainDot (R := 100000) (K := 64) (M := 16) Cert.ReferenceIdeal.dot_S100000x64_S64x16_S100000x16_1_0_0_1_n_n :=
  ⟨rfl, rfl, Cert.ReferenceIdeal.Read.lhs_main_v49_0, Cert.ReferenceIdeal.Read.lhs_main_v49_1,
    Cert.ReferenceIdeal.Read.rhs_main_v49_0, Cert.ReferenceIdeal.Read.rhs_main_v49_1⟩

end Cert.Sage

end
-- ==== Proof.Whole.lean ====
/-
  The plain program's two layers, each as ONE function of six operands.

  Both layers of the plain program have the same form: the summed messages `A` divided elementwise by a divisor
  array `D`, multiplied by `Wl`; plus the bias `b` broadcast over the rows; plus the features `X` multiplied by `Wr`;
  the hidden layer is then clipped below at zero. In the plain program the hidden layer's operands are the first
  scatter-add of gathered input rows, the clipped in-degree broadcast over the columns, and the input features; the
  output layer's are the scatter-add of gathered HIDDEN rows, the same divisor, and the hidden features. The divisor
  array at `(n, k)` is `max (deg n) 1` in both layers, where `deg` is the scatter-add of ones over the destination
  indices.
-/
import proofs.«124443_j66614942761183_1_alg».proof.Proof.Gen.ReferenceIdeal.Read
import Idealize.ShloMosaic.Lib.ValueIdx

noncomputable section

namespace Cert.Sage

open Idealize.ShloMosaic Idealize.ShloMosaic.ValueIdx
open Cert.ReferenceIdeal Cert.ReferenceIdeal.Gen Cert.ReferenceIdeal.Read

/-- The hidden layer: `max ((A / D) · Wl + b + X · Wr) 0`, spelt as the plain program spells it. -/
def wholeHidden (A D X : FVec Ideal S100000x64 .f32) (Wl Wr : FVec Ideal S64x64 .f32) (b : FVec Ideal S64 .f32) :
    FVec Ideal S100000x64 .f32 :=
  maximumf (addf (addf (Host.dotGeneral dot_S100000x64_S64x64_S100000x64_1_0_0_1_n_n none (Host.divf A D) Wl)
      (broadcastInDim S100000x64 ![0, 1] bcast_S1x64_S100000x64_0_1 (broadcastInDim S1x64 ![1] bcast_S64_S1x64_1 b)))
      (Host.dotGeneral dot_S100000x64_S64x64_S100000x64_1_0_0_1_n_n none X Wr))
    (broadcastInDim S100000x64 ![] bcast_S_S100000x64 (constant (F := Ideal) S_ .f32 0x00000000#32))

/-- The output layer: `(A / D) · Wl + b + X · Wr`, spelt as the plain program spells it. -/
def wholeOut (A D X : FVec Ideal S100000x64 .f32) (Wl Wr : FVec Ideal S64x16 .f32) (b : FVec Ideal S16 .f32) :
    FVec Ideal S100000x16 .f32 :=
  addf (addf (Host.dotGeneral dot_S100000x64_S64x16_S100000x16_1_0_0_1_n_n none (Host.divf A D) Wl)
      (broadcastInDim S100000x16 ![0, 1] bcast_S1x16_S100000x16_0_1 (broadcastInDim S1x16 ![1] bcast_S16_S1x16_1 b)))
      (Host.dotGeneral dot_S100000x64_S64x16_S100000x16_1_0_0_1_n_n none X Wr)

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64x16, .f32⟩ : BufTy).Contents (Elt Ideal))
  (x6 : (⟨S16, .f32⟩ : BufTy).Contents (Elt Ideal)) (x7 : (⟨S64x16, .f32⟩ : BufTy).Contents (Elt Ideal))

/-- The plain program's hidden features are the hidden layer of the first aggregation, the divisor array and the inputs. -/
theorem hidden_eq :
    val_main_v29 (F := Ideal) x0 x1 x2 x3 x4
      = wholeHidden (val_main_v13 (F := Ideal) x0 x1) (val_main_v21 (F := Ideal) x1) x0 x2 x4 x3 := rfl

/-- The plain program's result is the output layer of the second aggregation, the divisor array and the hidden features. -/
theorem out_eq :
    val_main_v54 (F := Ideal) x0 x1 x2 x3 x4 x5 x6 x7
      = wholeOut (val_main_v39 (F := Ideal) x0 x1 x2 x3 x4) (val_main_v47 (F := Ideal) x1)
          (val_main_v29 (F := Ideal) x0 x1 x2 x3 x4) x5 x7 x6 := rfl

/-- The hidden layer's divisor at `(n, k)` is the in-degree of node `n` clipped below at one. -/
theorem divisor_hidden (n : Fin 100000) (k : Fin 64) :
    val_main_v21 (F := Ideal) x1 (ix2 n k) = max (val_main_v17 (F := Ideal) x1 (ix1 n)) (Ideal.ofBits .f32 0x3F800000#32) := by
  have e : idx_main_v20 (idx_main_v21 (ix2 n k)) = ix1 n := funext fun a => by
    match a with
    | ⟨0, _⟩ => rfl
  rw [val_main_v21_apply, val_main_v20_apply, val_main_v19_apply, val_main_v18_apply, val_main_cst_3_apply, e]
  rfl

/-- The output layer's divisor is the same number: the second in-degree array is the first, term for term. -/
theorem divisor_out (n : Fin 100000) (k : Fin 64) :
    val_main_v47 (F := Ideal) x1 (ix2 n k) = max (val_main_v17 (F := Ideal) x1 (ix1 n)) (Ideal.ofBits .f32 0x3F800000#32) := by
  have e : idx_main_v46 (idx_main_v47 (ix2 n k)) = ix1 n := funext fun a => by
    match a with
    | ⟨0, _⟩ => rfl
  rw [val_main_v47_apply, val_main_v46_apply, val_main_v45_apply, val_main_v44_apply, val_main_cst_9_apply, e]
  rfl

end Cert.Sage

end
-- ==== Proof.Region0.lean ====
/-
  The first region's result: the hidden features of all 100000 nodes.

  The region runs ten grid points; point `t` reads rows `10000·t … 10000·t + 9999` of the summed messages, of the
  in-degree column and of the node features, the two weight matrices and the bias row whole, and writes back the same
  rows of its result. On its block the body computes the hidden layer of those rows (the generic row-by-row lemma), so
  what point `t` writes back is block `t` of the plain program's hidden layer of the whole arrays; the ten blocks tile
  the result, hence the result array after the region IS that layer — for whatever contents `V` the region is entered
  from, as long as its six operand arrays hold the layer's operands.
-/
import proofs.«124443_j66614942761183_1_alg».proof.Proof.Gen.KernelIdeal.Frame
import proofs.«124443_j66614942761183_1_alg».proof.Proof.SageLayer
import proofs.«124443_j66614942761183_1_alg».proof.Proof.Dots
import proofs.«124443_j66614942761183_1_alg».proof.Proof.Whole
import Idealize.ShloMosaic.Lib.Pipeline.Value

set_option maxRecDepth 16384

noncomputable section

namespace Cert.Sage.Hidden

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- ON A BLOCK: where the message, degree and feature blocks hold rows `n r` of the whole arrays (the degree column
    clipped at one being the divisor array along row `n r`), the weight blocks are the weights and the bias row is the
    bias, the body's stored value at `(r, q)` is the plain hidden layer at `(n r, q)`. -/
theorem pay_rows (x1 : Vec Ideal S10000x1 .f32) (x0 x2 : Vec Ideal S10000x64 .f32) (x3 x5 : Vec Ideal S64x64 .f32)
    (x4 : Vec Ideal S1x64 .f32)
    (A D X : FVec Ideal S100000x64 .f32) (Wl Wr : FVec Ideal S64x64 .f32) (b : FVec Ideal S64 .f32)
    (n : Fin 10000 → Fin 100000)
    (hA : ∀ r k, x0 (ix2 r k) = A (ix2 (n r) k))
    (hD : ∀ r k, max (x1 (ix2 r (0 : Fin 1))) (Ideal.ofBits .f32 0x3F800000#32) = D (ix2 (n r) k))
    (hX : ∀ r k, x2 (ix2 r k) = X (ix2 (n r) k))
    (hWl : x3 = Wl) (hWr : x5 = Wr) (hb : ∀ q : Fin 64, x4 (ix2 (0 : Fin 1) q) = b (ix1 q))
    (r : Fin 10000) (q : Fin 64) :
    k0_pay1 (F := Ideal) x1 x0 x2 x3 x5 x4 (ix2 r q) = wholeHidden A D X Wl Wr b (ix2 (n r) q) := by
  subst hWl hWr
  unfold k0_pay1 wholeHidden
  exact relu_layer_rows plain_tile64 plain_whole64
    (shapeCast S10000x64 x0 shapeCasts_S10000x64_S10000x64)
    (maximumf (shapeCast S10000x1 x1 shapeCasts_S10000x1_S10000x1) (broadcast S10000x1 (Scalar.ofBits (F := Ideal) .f32 0x3F800000#32)))
    x2 (shapeCast S1x64 x4 shapeCasts_S1x64_S1x64) A D X x3 x5 b n
    (fun r k => by rw [shapeCast_self]; exact hA r k)
    (fun r k => by rw [maximumf_apply, shapeCast_self, broadcast_apply]; exact hD r k)
    hX (fun q => by rw [shapeCast_self]; exact hb q)
    bitsLt_bf16_f32 broadcasts_S10000x1_S10000x64 broadcasts_S1x64_S10000x64
    _ _ _ r q

/-- The printed index maps, decided over the ten points: the three row-tiled inputs and the result move with the point
    along the rows and stay at column block 0; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every row block is some point's. -/
theorem idx_onto : ∀ q0 : Fin 10, ∃ t : Fin cfg0.N, t.val = q0.val :=
  (by decide +kernel : ∀ q0 : Fin 10, ∃ t : Fin grid0.N, t.val = q0.val)

theorem lt_N (t : Fin cfg0.N) : t.val < 10 := lt_of_lt_of_eq t.isLt N_0

/-- Row `r` of point `t`'s blocks is row `10000·t + r` of the arrays. -/
def rowOf (t : Fin cfg0.N) (r : Fin 10000) : Fin 100000 := ⟨t.val * 10000 + r.val, by have := lt_N t; have := r.isLt; omega⟩

variable (V : (c : Dev nD) → (b : Ref sig .tc) → Buf (Elt Ideal) ((c : Thread nD τ).loc b))

/-! ## The blocks read off the arrays -/

theorem blk0 (c : Dev nD) (t : Fin cfg0.N) (r : Fin 10000) (k : Fin 64) :
    iblk0 V c 0 t (ix2 r k) = (V c main_v17 : FVec Ideal S100000x64 .f32) (ix2 (rowOf t r) k) := by
  obtain ⟨e0, e1, -⟩ := idx_facts t
  show V c main_v17 (((cfg0.win 0).blk t).view.emb (ix2 r k)) = V c main_v17 (ix2 (rowOf t r) k)
  refine congrArg (V c main_v17) (funext fun a => Fin.ext ?_)
  match a with
  | ⟨0, _⟩ => show win0_0.index t (0 : Fin 2) * 10000 + 1 * r.val = t.val * 10000 + r.val; omega
  | ⟨1, _⟩ => show win0_0.index t (1 : Fin 2) * 64 + 1 * k.val = k.val; omega

theorem blk1 (c : Dev nD) (t : Fin cfg0.N) (r : Fin 10000) :
    iblk0 V c 1 t (ix2 r (0 : Fin 1)) = (V c main_v18 : FVec Ideal S100000x1 .f32) (ix2 (rowOf t r) (0 : Fin 1)) := by
  obtain ⟨-, -, e0, e1, -⟩ := idx_facts t
  show V c main_v18 (((cfg0.win 1).blk t).view.emb (ix2 r (0 : Fin 1))) = V c main_v18 (ix2 (rowOf t r) (0 : Fin 1))
  refine congrArg (V c main_v18) (funext fun a => Fin.ext ?_)
  match a with
  | ⟨0, _⟩ => show win0_1.index t (0 : Fin 2) * 10000 + 1 * r.val = t.val * 10000 + r.val; omega
  | ⟨1, _⟩ => show win0_1.index t (1 : Fin 2) * 1 + 1 * 0 = 0; omega

theorem blk2 (c : Dev nD) (t : Fin cfg0.N) (r : Fin 10000) (k : Fin 64) :
    iblk0 V c 2 t (ix2 r k) = (V c main_arg0 : FVec Ideal S100000x64 .f32) (ix2 (rowOf t r) k) := by
  obtain ⟨-, -, -, -, e0, e1, -⟩ := idx_facts t
  show V c main_arg0 (((cfg0.win 2).blk t).view.emb (ix2 r k)) = V c main_arg0 (ix2 (rowOf t r) k)
  refine congrArg (V c main_arg0) (funext fun a => Fin.ext ?_)
  match a with
  | ⟨0, _⟩ => show win0_2.index t (0 : Fin 2) * 10000 + 1 * r.val = t.val * 10000 + r.val; omega
  | ⟨1, _⟩ => show win0_2.index t (1 : Fin 2) * 64 + 1 * k.val = k.val; omega

theorem blk3 (c : Dev nD) (t : Fin cfg0.N) : iblk0 V c 3 t = (V c main_arg2 : FVec Ideal S64x64 .f32) := by
  obtain ⟨-, -, -, -, -, -, e0, e1, -⟩ := idx_facts t
  funext j
  show V c main_arg2 (((cfg0.win 3).blk t).view.emb j) = V c main_arg2 j
  refine congrArg (V c main_arg2) (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega

theorem blk4 (c : Dev nD) (t : Fin cfg0.N) (q : Fin 64) :
    iblk0 V c 4 t (ix2 (0 : Fin 1) q) = (V c main_v19 : FVec Ideal S1x64 .f32) (ix2 (0 : Fin 1) q) := by
  obtain ⟨-, -, -, -, -, -, -, -, e0, e1, -⟩ := idx_facts t
  show V c main_v19 (((cfg0.win 4).blk t).view.emb (ix2 (0 : Fin 1) q)) = V c main_v19 (ix2 (0 : Fin 1) q)
  refine congrArg (V c main_v19) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

theorem blk5 (c : Dev nD) (t : Fin cfg0.N) : iblk0 V c 5 t = (V c main_arg4 : FVec Ideal S64x64 .f32) := by
  obtain ⟨-, -, -, -, -, -, -, -, -, -, e0, e1, -⟩ := idx_facts t
  funext j
  show V c main_arg4 (((cfg0.win 5).blk t).view.emb j) = V c main_arg4 j
  refine congrArg (V c main_arg4) (funext fun a => Fin.ext ?_)
  match a with
  | ⟨0, _⟩ => show win0_5.index t (0 : Fin 2) * 64 + 1 * (j 0).val = (j 0).val; omega
  | ⟨1, _⟩ => show win0_5.index t (1 : Fin 2) * 64 + 1 * (j 1).val = (j 1).val; omega

/-! ## The cover -/

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v20).slice (win0_6.rect t)).set ↔ _
  rw [View.set_slice_whole, Rect.mem_set_unit]
  exact Iff.rfl

/-- Every index of the result is in the block of the point its row belongs to. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-! ## What a point writes back, and the array -/

section Value

variable (c : Dev nD) (A D X : FVec Ideal S100000x64 .f32) (Wl Wr : FVec Ideal S64x64 .f32) (b : FVec Ideal S64 .f32)
  (hA : (V c main_v17 : FVec Ideal S100000x64 .f32) = A)
  (δ : FVec Ideal S100000x1 .f32) (hδ : (V c main_v18 : FVec Ideal S100000x1 .f32) = δ)
  (hD : ∀ (n : Fin 100000) (k : Fin 64), max (δ (ix2 n (0 : Fin 1))) (Ideal.ofBits .f32 0x3F800000#32) = D (ix2 n k))
  (hX : (V c main_arg0 : FVec Ideal S100000x64 .f32) = X)
  (hWl : (V c main_arg2 : FVec Ideal S64x64 .f32) = Wl) (hWr : (V c main_arg4 : FVec Ideal S64x64 .f32) = Wr)
  (hb : ∀ q : Fin 64, (V c main_v19 : FVec Ideal S1x64 .f32) (ix2 (0 : Fin 1) q) = b (ix1 q))

include hA hδ hD hX hWl hWr hb

/-- WHAT POINT `t` WRITES BACK is block `t` of the plain hidden layer of the whole operands. -/
theorem flushed_eq (t : Fin cfg0.N) :
    (dat0 V c).flushed 6 t = ((cfg0.win 6).blk t).view.read (Elt Ideal) (wholeHidden A D X Wl Wr b) := by
  show (cfg0.win 6).cut (grid0.coords t) ((dat0 V c).after 6 t) = _
  rw [after0_6]
  unfold out0_6
  rw [View.canon_unit_zero hz]
  simp only [View.ld_unit_zero (S := S10000x1) hz, View.ld_unit_zero (S := S10000x64) hz, View.ld_unit_zero (S := S64x64) hz,
    View.ld_unit_zero (S := S1x64) hz]
  obtain ⟨-, -, -, -, -, -, -, -, -, -, -, -, e0, e1⟩ := idx_facts t
  funext j
  obtain ⟨r, q, rfl⟩ : ∃ (r : Fin 10000) (q : Fin 64), j = ix2 r q := ⟨j 0, j 1, eq_ix2 j⟩
  have hemb : ((cfg0.win 6).blk t).view.emb (ix2 r q) = (ix2 (rowOf t r) q : S100000x64.Idx) := funext fun a => Fin.ext (by
    match a with
    | ⟨0, _⟩ => show win0_6.index t (0 : Fin 2) * 10000 + 1 * r.val = t.val * 10000 + r.val; omega
    | ⟨1, _⟩ => show win0_6.index t (1 : Fin 2) * 64 + 1 * q.val = q.val; omega)
  show k0_pay1 (F := Ideal) (iblk0 V c 1 t) (iblk0 V c 0 t) (iblk0 V c 2 t) (iblk0 V c 3 t) (iblk0 V c 5 t) (iblk0 V c 4 t) (ix2 r q)
      = wholeHidden A D X Wl Wr b (((cfg0.win 6).blk t).view.emb (ix2 r q))
  rw [hemb]
  refine pay_rows (iblk0 V c 1 t) (iblk0 V c 0 t) (iblk0 V c 2 t) (iblk0 V c 3 t) (iblk0 V c 5 t) (iblk0 V c 4 t)
    A D X Wl Wr b (rowOf t) ?_ ?_ ?_ ?_ ?_ ?_ r q
  · intro r k; rw [blk0, hA]
  · intro r k; rw [blk1, hδ]; exact hD (rowOf t r) k
  · intro r k; rw [blk2, hX]
  · rw [blk3, hWl]
  · rw [blk5, hWr]
  · intro q; rw [blk4]; exact hb q

/-- THE RESULT ARRAY after the region is the plain hidden layer of the whole operands. -/
theorem value : (dat0 V c).arrAt 6 cfg0.N = wholeHidden A D X Wl Wr b :=
  (dat0 V c).arrAt_eq_of_cover 6 (wholeHidden A D X Wl Wr b)
    (fun t _ => flushed_eq V c A D X Wl Wr b hA δ hδ hD hX hWl hWr hb t) cover

end Value

end Cert.Sage.Hidden

end
-- ==== Proof.Region1.lean ====
/-
  The second region's result: the output features of all 100000 nodes.

  The region runs ten grid points; point `t` reads rows `10000·t … 10000·t + 9999` of the second aggregation, of the
  in-degree column and of the hidden features, the two `[64, 16]` weight matrices and the bias row whole, and writes
  back the same rows of its result. On its block the body computes the output layer of those rows (no clipping here,
  and the feature block passes through an identity re-shape first), so what point `t` writes back is block `t` of the
  plain program's output layer of the whole arrays; the ten blocks tile the result, hence the result array after the
  region IS that layer — for whatever contents `V` the region is entered from, as long as its six operand arrays hold
  the layer's operands.
-/
import proofs.«124443_j66614942761183_1_alg».proof.Proof.Gen.KernelIdeal.Frame
import proofs.«124443_j66614942761183_1_alg».proof.Proof.SageLayer
import proofs.«124443_j66614942761183_1_alg».proof.Proof.Dots
import proofs.«124443_j66614942761183_1_alg».proof.Proof.Whole
import Idealize.ShloMosaic.Lib.Pipeline.Value

set_option maxRecDepth 16384

noncomputable section

namespace Cert.Sage.Out

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- ON A BLOCK: where the aggregation, degree and hidden-feature blocks hold rows `n r` of the whole arrays (the degree
    column clipped at one being the divisor array along row `n r`), the weight blocks are the weights and the bias row
    is the bias, the body's stored value at `(r, q)` is the plain output layer at `(n r, q)`. -/
theorem pay_rows (x1 : Vec Ideal S10000x1 .f32) (x0 x2 : Vec Ideal S10000x64 .f32) (x3 x5 : Vec Ideal S64x16 .f32)
    (x4 : Vec Ideal S1x16 .f32)
    (A D X : FVec Ideal S100000x64 .f32) (Wl Wr : FVec Ideal S64x16 .f32) (b : FVec Ideal S16 .f32)
    (n : Fin 10000 → Fin 100000)
    (hA : ∀ r k, x0 (ix2 r k) = A (ix2 (n r) k))
    (hD : ∀ r k, max (x1 (ix2 r (0 : Fin 1))) (Ideal.ofBits .f32 0x3F800000#32) = D (ix2 (n r) k))
    (hX : ∀ r k, x2 (ix2 r k) = X (ix2 (n r) k))
    (hWl : x3 = Wl) (hWr : x5 = Wr) (hb : ∀ q : Fin 16, x4 (ix2 (0 : Fin 1) q) = b (ix1 q))
    (r : Fin 10000) (q : Fin 16) :
    k1_pay1 (F := Ideal) x1 x0 x2 x3 x5 x4 (ix2 r q) = wholeOut A D X Wl Wr b (ix2 (n r) q) := by
  subst hWl hWr
  unfold k1_pay1 wholeOut
  exact layer_rows plain_tile16 plain_whole16
    (shapeCast S10000x64 x0 shapeCasts_S10000x64_S10000x64)
    (maximumf (shapeCast S10000x1 x1 shapeCasts_S10000x1_S10000x1) (broadcast S10000x1 (Scalar.ofBits (F := Ideal) .f32 0x3F800000#32)))
    (shapeCast S10000x64 x2 shapeCasts_S10000x64_S10000x64) (shapeCast S1x16 x4 shapeCasts_S1x16_S1x16) A D X x3 x5 b n
    (fun r k => by rw [shapeCast_self]; exact hA r k)
    (fun r k => by rw [maximumf_apply, shapeCast_self, broadcast_apply]; exact hD r k)
    (fun r k => by rw [shapeCast_self]; exact hX r k) (fun q => by rw [shapeCast_self]; exact hb q)
    bitsLt_bf16_f32 broadcasts_S10000x1_S10000x64 broadcasts_S1x16_S10000x16
    _ _ r q

/-- The printed index maps, decided over the ten points: the three row-tiled inputs and the result move with the point
    along the rows and stay at column block 0; the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every row block is some point's. -/
theorem idx_onto : ∀ q0 : Fin 10, ∃ t : Fin cfg1.N, t.val = q0.val :=
  (by decide +kernel : ∀ q0 : Fin 10, ∃ t : Fin grid1.N, t.val = q0.val)

theorem lt_N (t : Fin cfg1.N) : t.val < 10 := lt_of_lt_of_eq t.isLt N_1

/-- Row `r` of point `t`'s blocks is row `10000·t + r` of the arrays. -/
def rowOf (t : Fin cfg1.N) (r : Fin 10000) : Fin 100000 := ⟨t.val * 10000 + r.val, by have := lt_N t; have := r.isLt; omega⟩

variable (V : (c : Dev nD) → (b : Ref sig .tc) → Buf (Elt Ideal) ((c : Thread nD τ).loc b))

/-! ## The blocks read off the arrays -/

theorem blk0 (c : Dev nD) (t : Fin cfg1.N) (r : Fin 10000) (k : Fin 64) :
    iblk1 V c 0 t (ix2 r k) = (V c main_v30 : FVec Ideal S100000x64 .f32) (ix2 (rowOf t r) k) := by
  obtain ⟨e0, e1, -⟩ := idx_facts t
  show V c main_v30 (((cfg1.win 0).blk t).view.emb (ix2 r k)) = V c main_v30 (ix2 (rowOf t r) k)
  refine congrArg (V c main_v30) (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * k.val = k.val; omega

theorem blk1 (c : Dev nD) (t : Fin cfg1.N) (r : Fin 10000) :
    iblk1 V c 1 t (ix2 r (0 : Fin 1)) = (V c main_v31 : FVec Ideal S100000x1 .f32) (ix2 (rowOf t r) (0 : Fin 1)) := by
  obtain ⟨-, -, e0, e1, -⟩ := idx_facts t
  show V c main_v31 (((cfg1.win 1).blk t).view.emb (ix2 r (0 : Fin 1))) = V c main_v31 (ix2 (rowOf t r) (0 : Fin 1))
  refine congrArg (V c main_v31) (funext fun a => Fin.ext ?_)
  match a with
  | ⟨0, _⟩ => show win1_1.index t (0 : Fin 2) * 10000 + 1 * r.val = t.val * 10000 + r.val; omega
  | ⟨1, _⟩ => show win1_1.index t (1 : Fin 2) * 1 + 1 * 0 = 0; omega

theorem blk2 (c : Dev nD) (t : Fin cfg1.N) (r : Fin 10000) (k : Fin 64) :
    iblk1 V c 2 t (ix2 r k) = (V c main_v20 : FVec Ideal S100000x64 .f32) (ix2 (rowOf t r) k) := by
  obtain ⟨-, -, -, -, e0, e1, -⟩ := idx_facts t
  show V c main_v20 (((cfg1.win 2).blk t).view.emb (ix2 r k)) = V c main_v20 (ix2 (rowOf t r) k)
  refine congrArg (V c main_v20) (funext fun a => Fin.ext ?_)
  match a with
  | ⟨0, _⟩ => show win1_2.index t (0 : Fin 2) * 10000 + 1 * r.val = t.val * 10000 + r.val; omega
  | ⟨1, _⟩ => show win1_2.index t (1 : Fin 2) * 64 + 1 * k.val = k.val; omega

theorem blk3 (c : Dev nD) (t : Fin cfg1.N) : iblk1 V c 3 t = (V c main_arg5 : FVec Ideal S64x16 .f32) := by
  obtain ⟨-, -, -, -, -, -, e0, e1, -⟩ := idx_facts t
  funext j
  show V c main_arg5 (((cfg1.win 3).blk t).view.emb j) = V c main_arg5 j
  refine congrArg (V c main_arg5) (funext fun a => Fin.ext ?_)
  match a with
  | ⟨0, _⟩ => show win1_3.index t (0 : Fin 2) * 64 + 1 * (j 0).val = (j 0).val; omega
  | ⟨1, _⟩ => show win1_3.index t (1 : Fin 2) * 16 + 1 * (j 1).val = (j 1).val; omega

theorem blk4 (c : Dev nD) (t : Fin cfg1.N) (q : Fin 16) :
    iblk1 V c 4 t (ix2 (0 : Fin 1) q) = (V c main_v32 : FVec Ideal S1x16 .f32) (ix2 (0 : Fin 1) q) := by
  obtain ⟨-, -, -, -, -, -, -, -, e0, e1, -⟩ := idx_facts t
  show V c main_v32 (((cfg1.win 4).blk t).view.emb (ix2 (0 : Fin 1) q)) = V c main_v32 (ix2 (0 : Fin 1) q)
  refine congrArg (V c main_v32) (funext fun a => Fin.ext ?_)
  match a with
  | ⟨0, _⟩ => show win1_4.index t (0 : Fin 2) * 1 + 1 * 0 = 0; omega
  | ⟨1, _⟩ => show win1_4.index t (1 : Fin 2) * 16 + 1 * q.val = q.val; omega

theorem blk5 (c : Dev nD) (t : Fin cfg1.N) : iblk1 V c 5 t = (V c main_arg7 : FVec Ideal S64x16 .f32) := by
  obtain ⟨-, -, -, -, -, -, -, -, -, -, e0, e1, -⟩ := idx_facts t
  funext j
  show V c main_arg7 (((cfg1.win 5).blk t).view.emb j) = V c main_arg7 j
  refine congrArg (V c main_arg7) (funext fun a => Fin.ext ?_)
  match a with
  | ⟨0, _⟩ => show win1_5.index t (0 : Fin 2) * 64 + 1 * (j 0).val = (j 0).val; omega
  | ⟨1, _⟩ => show win1_5.index t (1 : Fin 2) * 16 + 1 * (j 1).val = (j 1).val; omega

/-! ## The cover -/

/-- An index of the array is in point `t`'s block iff each coordinate is in the block's range on its axis. -/
theorem mem_blk (t : Fin cfg1.N) (i : S100000x16.Idx) :
    i ∈ ((cfg1.win 6).blk t).view.set ↔ ∀ a : Fin 2, win1_6.index t a * S10000x16.size a ≤ (i a).val ∧ (i a).val < win1_6.index t a * S10000x16.size a + S10000x16.size a := by
  show i ∈ ((View.whole main_v33).slice (win1_6.rect t)).set ↔ _
  rw [View.set_slice_whole, Rect.mem_set_unit]
  exact Iff.rfl

/-- Every index of the result is in the block of the point its row belongs to. -/
theorem cover (i : S100000x16.Idx) : ∃ t : Fin cfg1.N, (cfg1.win 6).flush t = true ∧ i ∈ ((cfg1.win 6).blk t).view.set := by
  have hi0 : (i 0).val < 100000 := (i 0).isLt
  have hi1 : (i 1).val < 16 := (i 1).isLt
  obtain ⟨t, ht⟩ := idx_onto ⟨(i 0).val / 10000, by omega⟩
  have ht' : t.val = (i 0).val / 10000 := ht
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 16 ≤ (i 1).val ∧ (i 1).val < win1_6.index t (1 : Fin 2) * 16 + 16; omega

/-! ## What a point writes back, and the array -/

section Value

variable (c : Dev nD) (A D X : FVec Ideal S100000x64 .f32) (Wl Wr : FVec Ideal S64x16 .f32) (b : FVec Ideal S16 .f32)
  (hA : (V c main_v30 : FVec Ideal S100000x64 .f32) = A)
  (δ : FVec Ideal S100000x1 .f32) (hδ : (V c main_v31 : FVec Ideal S100000x1 .f32) = δ)
  (hD : ∀ (n : Fin 100000) (k : Fin 64), max (δ (ix2 n (0 : Fin 1))) (Ideal.ofBits .f32 0x3F800000#32) = D (ix2 n k))
  (hX : (V c main_v20 : FVec Ideal S100000x64 .f32) = X)
  (hWl : (V c main_arg5 : FVec Ideal S64x16 .f32) = Wl) (hWr : (V c main_arg7 : FVec Ideal S64x16 .f32) = Wr)
  (hb : ∀ q : Fin 16, (V c main_v32 : FVec Ideal S1x16 .f32) (ix2 (0 : Fin 1) q) = b (ix1 q))

include hA hδ hD hX hWl hWr hb

/-- WHAT POINT `t` WRITES BACK is block `t` of the plain output layer of the whole operands. -/
theorem flushed_eq (t : Fin cfg1.N) :
    (dat1 V c).flushed 6 t = ((cfg1.win 6).blk t).view.read (Elt Ideal) (wholeOut A D X Wl Wr b) := by
  show (cfg1.win 6).cut (grid1.coords t) ((dat1 V c).after 6 t) = _
  rw [after1_6]
  unfold out1_6
  rw [View.canon_unit_zero hz]
  simp only [View.ld_unit_zero (S := S10000x1) hz, View.ld_unit_zero (S := S10000x64) hz, View.ld_unit_zero (S := S64x16) hz,
    View.ld_unit_zero (S := S1x16) hz]
  obtain ⟨-, -, -, -, -, -, -, -, -, -, -, -, e0, e1⟩ := idx_facts t
  funext j
  obtain ⟨r, q, rfl⟩ : ∃ (r : Fin 10000) (q : Fin 16), j = ix2 r q := ⟨j 0, j 1, eq_ix2 j⟩
  have hemb : ((cfg1.win 6).blk t).view.emb (ix2 r q) = (ix2 (rowOf t r) q : S100000x16.Idx) := funext fun a => Fin.ext (by
    match a with
    | ⟨0, _⟩ => show win1_6.index t (0 : Fin 2) * 10000 + 1 * r.val = t.val * 10000 + r.val; omega
    | ⟨1, _⟩ => show win1_6.index t (1 : Fin 2) * 16 + 1 * q.val = q.val; omega)
  show k1_pay1 (F := Ideal) (iblk1 V c 1 t) (iblk1 V c 0 t) (iblk1 V c 2 t) (iblk1 V c 3 t) (iblk1 V c 5 t) (iblk1 V c 4 t) (ix2 r q)
      = wholeOut A D X Wl Wr b (((cfg1.win 6).blk t).view.emb (ix2 r q))
  rw [hemb]
  refine pay_rows (iblk1 V c 1 t) (iblk1 V c 0 t) (iblk1 V c 2 t) (iblk1 V c 3 t) (iblk1 V c 5 t) (iblk1 V c 4 t)
    A D X Wl Wr b (rowOf t) ?_ ?_ ?_ ?_ ?_ ?_ r q
  · intro r k; rw [blk0, hA]
  · intro r k; rw [blk1, hδ]; exact hD (rowOf t r) k
  · intro r k; rw [blk2, hX]
  · rw [blk3, hWl]
  · rw [blk5, hWr]
  · intro q; rw [blk4]; exact hb q

/-- THE RESULT ARRAY after the region is the plain output layer of the whole operands. -/
theorem value : (dat1 V c).arrAt 6 cfg1.N = wholeOut A D X Wl Wr b :=
  (dat1 V c).arrAt_eq_of_cover 6 (wholeOut A D X Wl Wr b)
    (fun t _ => flushed_eq V c A D X Wl Wr b hA δ hδ hD hX hWl hWr hb t) cover

end Value

end Cert.Sage.Out

end
-- ==== Proof.Chain.lean ====
/-
  The idealized kernel program's result, followed through @main.

  @main is four stretches: host operations, the first region, host operations, the second region. The first host
  stretch computes the in-degrees (a scatter-add of ones over the destination indices), the first aggregation (the
  scatter-add, over the destination indices, of the input rows gathered at the wrapped source indices) and two
  reshapes; these are, operation for operation, the plain program's own terms. The first region then leaves the plain
  hidden layer of them in its result array. The second host stretch repeats the aggregation on that array, which makes
  it the plain program's second aggregation, and the second region leaves the plain output layer: the plain program's
  result.
-/
import proofs.«124443_j66614942761183_1_alg».proof.Proof.KernelNamed
import proofs.«124443_j66614942761183_1_alg».proof.Proof.Region0
import proofs.«124443_j66614942761183_1_alg».proof.Proof.Region1
import Idealize.ShloMosaic.Lib.StableHlo.Run
import Idealize.ShloMosaic.Lib.ValueLayout

set_option maxRecDepth 16384
set_option maxHeartbeats 4000000

noncomputable section

namespace Cert.Sage.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg) (c : Dev nD)

/-! ## After the first host stretch -/

theorem W1_v1 : W1 m ρ c (Proc.devRef .tc main_v1) = val_main_v1 (F := Ideal) (m ((c.tc : Thread nD τ).loc main_arg1)) := by
  show StableHlo.after hostOps0 (W0 m ρ c) (Proc.devRef .tc main_v1) = _
  after_results_simp <;> rfl
theorem W1_v3 : W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl
/-- The in-degrees. -/
theorem W1_v7 : W1 m ρ c (Proc.devRef .tc main_v7) = val_main_v17 (F := Ideal) (m ((c.tc : Thread nD τ).loc main_arg1)) := by
  show StableHlo.after hostOps0 (W0 m ρ c) (Proc.devRef .tc main_v7) = _
  after_results_simp <;> rfl
/-- The first aggregation. -/
theorem W1_v17 : W1 m ρ c (Proc.devRef .tc main_v17) = val_main_v13 (F := Ideal) (m ((c.tc : Thread nD τ).loc main_arg0)) (m ((c.tc : Thread nD τ).loc main_arg1)) := by
  show StableHlo.after hostOps0 (W0 m ρ c) (Proc.devRef .tc main_v17) = _
  after_results_simp <;> rfl
/-- The in-degrees as a column. -/
theorem W1_v18 : W1 m ρ c (Proc.devRef .tc main_v18) = shapeCast _ (val_main_v17 (F := Ideal) (m ((c.tc : Thread nD τ).loc main_arg1))) shapeCasts_S100000_S100000x1 := by
  show StableHlo.after hostOps0 (W0 m ρ c) (Proc.devRef .tc main_v18) = _
  after_results_simp <;> rfl
/-- The first bias as a row. -/
theorem W1_v19 : W1 m ρ c (Proc.devRef .tc main_v19) = shapeCast _ (m ((c.tc : Thread nD τ).loc main_arg3)) shapeCasts_S64_S1x64 := by
  show StableHlo.after hostOps0 (W0 m ρ c) (Proc.devRef .tc main_v19) = _
  after_results_simp <;> rfl
theorem W1_arg0 : W1 m ρ c (Proc.devRef .tc main_arg0) = (m ((c.tc : Thread nD τ).loc main_arg0)) := by
  show StableHlo.after hostOps0 (W0 m ρ c) (Proc.devRef .tc main_arg0) = _
  after_results_simp <;> rfl
theorem W1_arg2 : W1 m ρ c (Proc.devRef .tc main_arg2) = (m ((c.tc : Thread nD τ).loc main_arg2)) := by
  show StableHlo.after hostOps0 (W0 m ρ c) (Proc.devRef .tc main_arg2) = _
  after_results_simp <;> rfl
theorem W1_arg4 : W1 m ρ c (Proc.devRef .tc main_arg4) = (m ((c.tc : Thread nD τ).loc main_arg4)) := by
  show StableHlo.after hostOps0 (W0 m ρ c) (Proc.devRef .tc main_arg4) = _
  after_results_simp <;> rfl
theorem W1_arg5 : W1 m ρ c (Proc.devRef .tc main_arg5) = (m ((c.tc : Thread nD τ).loc main_arg5)) := by
  show StableHlo.after hostOps0 (W0 m ρ c) (Proc.devRef .tc main_arg5) = _
  after_results_simp <;> rfl
theorem W1_arg6 : W1 m ρ c (Proc.devRef .tc main_arg6) = (m ((c.tc : Thread nD τ).loc main_arg6)) := by
  show StableHlo.after hostOps0 (W0 m ρ c) (Proc.devRef .tc main_arg6) = _
  after_results_simp <;> rfl
theorem W1_arg7 : W1 m ρ c (Proc.devRef .tc main_arg7) = (m ((c.tc : Thread nD τ).loc main_arg7)) := by
  show StableHlo.after hostOps0 (W0 m ρ c) (Proc.devRef .tc main_arg7) = _
  after_results_simp <;> rfl

/-- A column made of a vector reads the vector at its row. -/
theorem column_apply {a : ℕ} (v : (⟨1, ![a]⟩ : Shape).Idx → EReal) (h : (⟨1, ![a]⟩ : Shape).ShapeCasts ⟨2, ![a, 1]⟩) (n : Fin a) :
    shapeCast ⟨2, ![a, 1]⟩ v h (ix2 n (0 : Fin 1)) = v (ix1 n) := by
  refine shapeCast_apply v h (ix2 n (0 : Fin 1)) (ix1 n) ?_
  rw [Shape.rowMajor_val_two, Shape.rowMajor_val_one]
  show n.val = n.val * 1 + 0
  omega

/-! ## The first region's result: the plain hidden features -/

theorem hidden :
    (dat0 (V1 m ρ) c).arrAt 6 cfg0.N = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.Sage.hidden_eq]
  refine Cert.Sage.Hidden.value (V1 m ρ) c _ _ _ _ _ _ (W1_v17 m ρ c) _ (W1_v18 m ρ c) ?_ (W1_arg0 m ρ c) (W1_arg2 m ρ c) (W1_arg4 m ρ c) ?_
  · intro n k
    rw [column_apply, Cert.Sage.divisor_hidden]
  · intro q
    exact (congrFun (W1_v19 m ρ c) (ix2 (0 : Fin 1) q)).trans (shapeCast_a_1a_apply _ _ (0 : Fin 1) q)

/-! ## After the second host stretch -/

theorem W2_v20 : W2 m ρ c (Proc.devRef .tc main_v20) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 6).trans (hidden m ρ c)
theorem W2_v1 : W2 m ρ c (Proc.devRef .tc main_v1) = val_main_v1 (F := Ideal) (m ((c.tc : Thread nD τ).loc main_arg1)) :=
  (W2_of_ne m ρ c main_v1 (by decide)).trans (W1_v1 m ρ c)
theorem W2_v3 : W2 m ρ c (Proc.devRef .tc main_v3) = val_main_v3 (F := Ideal) (m ((c.tc : Thread nD τ).loc main_arg1)) :=
  (W2_of_ne m ρ c main_v3 (by decide)).trans (W1_v3 m ρ c)
theorem W2_v7 : W2 m ρ c (Proc.devRef .tc main_v7) = val_main_v17 (F := Ideal) (m ((c.tc : Thread nD τ).loc main_arg1)) :=
  (W2_of_ne m ρ c main_v7 (by decide)).trans (W1_v7 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)

/-- The second aggregation: the scatter-add of the HIDDEN rows gathered at the wrapped source indices. -/
theorem W3_v30 : W3 m ρ c (Proc.devRef .tc main_v30) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v30) = _
  after_results_simp
  rw [W2_v20, W2_v1, W2_v3]
  rfl
theorem W3_v31 : W3 m ρ c (Proc.devRef .tc main_v31) = shapeCast _ (val_main_v17 (F := Ideal) (m ((c.tc : Thread nD τ).loc main_arg1))) shapeCasts_S100000_S100000x1 := by
  show StableHlo.after hostOps1 (W2 m ρ c) (Proc.devRef .tc main_v31) = _
  after_results_simp
  rw [W2_v7]
  rfl
theorem W3_v32 : W3 m ρ c (Proc.devRef .tc main_v32) = shapeCast _ (m ((c.tc : Thread nD τ).loc main_arg6)) shapeCasts_S16_S1x16 := by
  show StableHlo.after hostOps1 (W2 m ρ c) (Proc.devRef .tc main_v32) = _
  after_results_simp
  rw [W2_arg6]
  rfl
theorem W3_v20 : W3 m ρ c (Proc.devRef .tc main_v20) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v20) = _
  after_results_simp
  exact W2_v20 m ρ c
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c
theorem W3_arg7 : W3 m ρ c (Proc.devRef .tc main_arg7) = (m ((c.tc : Thread nD τ).loc main_arg7)) := by
  show StableHlo.after hostOps1 (W2 m ρ c) (Proc.devRef .tc main_arg7) = _
  after_results_simp
  exact W2_arg7 m ρ c

/-! ## The second region's result: the plain program's result -/

theorem out :
    (dat1 (V3 m ρ) c).arrAt 6 cfg1.N = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.Sage.out_eq]
  refine Cert.Sage.Out.value (V3 m ρ) c _ _ _ _ _ _ (W3_v30 m ρ c) _ (W3_v31 m ρ c) ?_ (W3_v20 m ρ c) (W3_arg5 m ρ c) (W3_arg7 m ρ c) ?_
  · intro n k
    rw [column_apply, Cert.Sage.divisor_out]
  · intro q
    exact (congrFun (W3_v32 m ρ c) (ix2 (0 : Fin 1) q)).trans (shapeCast_a_1a_apply _ _ (0 : Fin 1) q)

/-- THE RESULT of the idealized kernel program: the last boundary's contents at the result array are the plain
    program's result term of the launch arguments. -/
theorem result_eq : W4 m ρ c (Proc.devRef .tc main_v33) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_arr m ρ c 6).trans (out m ρ c)

end Cert.Sage.Chain

end
-- ==== Proof.lean ====
/-
  Two GraphSAGE layers with mean aggregation over 100000 nodes and 1.6 million edges: a Pallas kernel program against
  its jnp reference, equal over the extended reals.

  Both programs build the in-degree of every node (a scatter-add of ones over the destination indices) and, per layer,
  the sum of the neighbours' feature rows (a gather at the source indices, negative indices wrapped, then a scatter-add
  over the destination indices); these host operations are the same in both programs, operation for operation. A layer
  is then `(A / max(deg, 1)) · Wl + X · Wr + b`: the kernel computes it ten thousand rows at a time, its two products on
  the matrix unit with operands narrowed to bf16 and the bias added last; the reference computes `(A / max(deg, 1)) · Wl`
  by one `dot_general`, adds the bias, then adds `X · Wr`. Over the extended reals narrowing is the identity, a
  matrix-unit product into zeros and a `dot_general` are the same sums, and addition is commutative and associative, so
  the layers agree row by row; the hidden layer is clipped at zero in both programs. No finiteness of the inputs is
  used. The kernel program's frames are the generated ones; its run with the result named repeats the generated
  launch; the reference's run and its stages are the generated ones. The idealization rewrote nothing, so
  `preserves` is trivial.
-/
import proofs.«124443_j66614942761183_1_alg».proof.Defs
import proofs.«124443_j66614942761183_1_alg».proof.Proof.Gen.Kernel.Frame
import proofs.«124443_j66614942761183_1_alg».proof.Proof.Gen.KernelIdeal.Frame
import proofs.«124443_j66614942761183_1_alg».proof.Proof.Gen.ReferenceIdeal.Run
import proofs.«124443_j66614942761183_1_alg».proof.Proof.Gen.ReferenceIdeal.Read
import proofs.«124443_j66614942761183_1_alg».proof.Proof.Gen.Pre_finite_inputs
import proofs.«124443_j66614942761183_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's last stage of the (agreeing) arguments. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Chain.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
